-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x256 : Shape := ⟨3, ![64, 1024, 256]⟩
abbrev S_ : Shape := ⟨0, ![]⟩

class Facts : Prop where
  bcast_S_S64x1024x256 : S_.BroadcastsInDim S64x1024x256 (![] : Fin 0 → Fin S64x1024x256.rank)
  reducesTo_S64x1024x256_S_d0_1_2 : S64x1024x256.ReducesTo [0, 1, 2] S_
  h_S_ : 0 < S_.numel

variable [Facts]

def fn {F : FTy → Type} [FloatOps F] (main_arg0 : FVec F S64x1024x256 .f32) (main_arg1 : FVec F S64x1024x256 .f32) : IVec S_ 1 :=
  let main_v0 : FVec F S64x1024x256 .f32 := Host.absf main_arg0
  let main_cst : FVec F S_ .f32 := constant S_ .f32 0x7F800000#32
  let main_v1 : FVec F S64x1024x256 .f32 := broadcastInDim S64x1024x256 ![] bcast_S_S64x1024x256 main_cst
  let main_v2 : IVec S64x1024x256 1 := cmpf .olt main_v0 main_v1
  let main_c : IVec S_ 1 := constantI S_ 1 1#1
  let main_v3 : IVec S_ 1 := (fun x v => Host.reduce IntOp.andi x v reducesTo_S64x1024x256_S_d0_1_2 h_S_) main_v2 main_c
  let main_v4 : FVec F S64x1024x256 .f32 := Host.absf main_arg1
  let main_cst_0 : FVec F S_ .f32 := constant S_ .f32 0x7F800000#32
  let main_v5 : FVec F S64x1024x256 .f32 := broadcastInDim S64x1024x256 ![] bcast_S_S64x1024x256 main_cst_0
  let main_v6 : IVec S64x1024x256 1 := cmpf .olt main_v4 main_v5
  let main_c_1 : IVec S_ 1 := constantI S_ 1 1#1
  let main_v7 : IVec S_ 1 := (fun x v => Host.reduce IntOp.andi x v reducesTo_S64x1024x256_S_d0_1_2 h_S_) main_v6 main_c_1
  let main_v8 : IVec S_ 1 := andi main_v3 main_v7
  main_v8
-- ==== Kernel.lean ====
abbrev S64x1024x256 : Shape := ⟨3, ![64, 1024, 256]⟩
abbrev S64x1024x1024 : Shape := ⟨3, ![64, 1024, 1024]⟩
abbrev S64x1x1 : Shape := ⟨3, ![64, 1, 1]⟩
abbrev S1x1024x256 : Shape := ⟨3, ![1, 1024, 256]⟩
abbrev S1x1024x1024 : Shape := ⟨3, ![1, 1024, 1024]⟩
abbrev S1x1x1 : Shape := ⟨3, ![1, 1, 1]⟩
abbrev S1024x256 : Shape := ⟨2, ![1024, 256]⟩
abbrev S1024 : Shape := ⟨1, ![1024]⟩
abbrev S1024x1 : Shape := ⟨2, ![1024, 1]⟩
abbrev S256x1024 : Shape := ⟨2, ![256, 1024]⟩
abbrev S1024x1024 : Shape := ⟨2, ![1024, 1024]⟩
abbrev S1x1024 : Shape := ⟨2, ![1, 1024]⟩
abbrev S1 : Shape := ⟨1, ![1]⟩
abbrev S1x1 : Shape := ⟨2, ![1, 1]⟩
abbrev S_ : Shape := ⟨0, ![]⟩

abbrev nBuf : Space → Nat
  | .hbm => 12
  | .vmem => 14
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S64x1024x1024, .f32⟩
  | .hbm, ⟨3, _⟩ => ⟨S64x1x1, .f32⟩
  | .hbm, ⟨4, _⟩ => ⟨S_, .f32⟩
  | .hbm, ⟨5, _⟩ => ⟨S64x1x1, .f32⟩
  | .hbm, ⟨6, _⟩ => ⟨S64x1x1, .f32⟩
  | .hbm, ⟨7, _⟩ => ⟨S64x1024x1024, .i32⟩
  | .hbm, ⟨8, _⟩ => ⟨S_, .i32⟩
  | .hbm, ⟨9, _⟩ => ⟨S64x1024x1024, .i32⟩
  | .hbm, ⟨10, _⟩ => ⟨S64x1024x1024, .i1⟩
  | .hbm, ⟨11, _⟩ => ⟨S64x1024x1024, .i1⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1x1, .f32⟩
  | .local _ .vmem, ⟨7, _⟩ => ⟨S1x1x1, .f32⟩
  | .local _ .vmem, ⟨8, _⟩ => ⟨S1x1024x1024, .f32⟩
  | .local _ .vmem, ⟨9, _⟩ => ⟨S1x1024x1024, .f32⟩
  | .local _ .vmem, ⟨10, _⟩ => ⟨S1x1x1, .f32⟩
  | .local _ .vmem, ⟨11, _⟩ => ⟨S1x1x1, .f32⟩
  | .local _ .vmem, ⟨12, _⟩ => ⟨S1x1024x1024, .i32⟩
  | .local _ .vmem, ⟨13, _⟩ => ⟨S1x1024x1024, .i32⟩
  | _, _ => ⟨S64x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1024x1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  reduces_S1024x256_S1024 : S1024x256.Reduces [1] S1024
  shapeCasts_S1024_S1024x1 : S1024.ShapeCasts S1024x1
  bitsLt_bf16_f32 : FTy.bits .bf16 < FTy.bits .f32
  transposes_S1024x256_p1_0_S256x1024 : S1024x256.Transposes [1, 0] S256x1024
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  reduces_S1024x1024_S1024 : S1024x1024.Reduces [1] S1024
  reduces_S1024x1_S1 : S1024x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  bcast_S_S64x1x1 : S_.BroadcastsInDim S64x1x1 (![] : Fin 0 → Fin S64x1x1.rank)
  broadcasts_S1x1_S1024x1024 : S1x1.Broadcasts S1024x1024
  natLt_1_32 : 1 < 32
  bcast_S_S64x1024x1024 : S_.BroadcastsInDim S64x1024x1024 (![] : Fin 0 → Fin S64x1024x1024.rank)
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S64x1024x256.size a
  hwx0_0 : ∀ i : grid0.Coords, EltTy.bits .f32 = 32 ∨ (Rect.block (s := S64x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S64x1024x256.size a
  hwx0_1 : ∀ i : grid0.Coords, EltTy.bits .f32 = 32 ∨ (Rect.block (s := S64x1024x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x1024x1024.size a
  hwx0_2 : ∀ i : grid0.Coords, EltTy.bits .f32 = 32 ∨ (Rect.block (s := S64x1024x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S64x1x1.size a
  hwx0_3 : ∀ i : grid0.Coords, EltTy.bits .f32 = 32 ∨ (Rect.block (s := S64x1x1) S1x1x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S64x1024x1024.size a
  hwx1_0 : ∀ i : grid1.Coords, EltTy.bits .f32 = 32 ∨ (Rect.block (s := S64x1024x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x1.size a ≤ S64x1x1.size a
  hwx1_1 : ∀ i : grid1.Coords, EltTy.bits .f32 = 32 ∨ (Rect.block (s := S64x1x1) S1x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S64x1024x1024.size a
  hwx1_2 : ∀ i : grid1.Coords, EltTy.bits .i32 = 32 ∨ (Rect.block (s := S64x1024x1024) S1x1024x1024.size (cc1_transform_2 i) (hinb1_2 i)).WholeWords (EltTy.packing .i32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1024x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0_0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S1x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S64x1024x256 : Shape := ⟨3, ![64, 1024, 256]⟩
abbrev S_ : Shape := ⟨0, ![]⟩
abbrev S64x1024 : Shape := ⟨2, ![64, 1024]⟩
abbrev S64x1024x1 : Shape := ⟨3, ![64, 1024, 1]⟩
abbrev S64x1x1024 : Shape := ⟨3, ![64, 1, 1024]⟩
abbrev S64x1024x1024 : Shape := ⟨3, ![64, 1024, 1024]⟩
abbrev S64 : Shape := ⟨1, ![64]⟩
abbrev S64x1x1 : Shape := ⟨3, ![64, 1, 1]⟩

abbrev nBuf : Space → Nat
  | .hbm => 32
  | .vmem => 0
  | .smem => 0
  | _ => 0

abbrev bufTy : (tb : Table) → Fin (tcTables nBuf tb) → BufTy
  | .hbm, ⟨0, _⟩ => ⟨S64x1024x256, .f32⟩
  | .hbm, ⟨1, _⟩ => ⟨S64x1024x256, .f32⟩
  | .hbm, ⟨2, _⟩ => ⟨S64x1024x256, .f32⟩
  | .hbm, ⟨3, _⟩ => ⟨S_, .f32⟩
  | .hbm, ⟨4, _⟩ => ⟨S64x1024, .f32⟩
  | .hbm, ⟨5, _⟩ => ⟨S64x1024x1, .f32⟩
  | .hbm, ⟨6, _⟩ => ⟨S64x1024x256, .f32⟩
  | .hbm, ⟨7, _⟩ => ⟨S_, .f32⟩
  | .hbm, ⟨8, _⟩ => ⟨S64x1024, .f32⟩
  | .hbm, ⟨9, _⟩ => ⟨S64x1024x1, .f32⟩
  | .hbm, ⟨10, _⟩ => ⟨S64x1x1024, .f32⟩
  | .hbm, ⟨11, _⟩ => ⟨S64x1024x1024, .f32⟩
  | .hbm, ⟨12, _⟩ => ⟨S64x1024x1024, .f32⟩
  | .hbm, ⟨13, _⟩ => ⟨S64x1024x1024, .f32⟩
  | .hbm, ⟨14, _⟩ => ⟨S64x1024x1024, .f32⟩
  | .hbm, ⟨15, _⟩ => ⟨S_, .f32⟩
  | .hbm, ⟨16, _⟩ => ⟨S64x1024x1024, .f32⟩
  | .hbm, ⟨17, _⟩ => ⟨S64x1024x1024, .f32⟩
  | .hbm, ⟨18, _⟩ => ⟨S64x1024x1024, .f32⟩
  | .hbm, ⟨19, _⟩ => ⟨S_, .f32⟩
  | .hbm, ⟨20, _⟩ => ⟨S_, .f32⟩
  | .hbm, ⟨21, _⟩ => ⟨S64x1024x1024, .f32⟩
  | .hbm, ⟨22, _⟩ => ⟨S64x1024x1024, .f32⟩
  | .hbm, ⟨23, _⟩ => ⟨S64x1024x1024, .f32⟩
  | .hbm, ⟨24, _⟩ => ⟨S_, .f32⟩
  | .hbm, ⟨25, _⟩ => ⟨S64, .f32⟩
  | .hbm, ⟨26, _⟩ => ⟨S64x1x1, .f32⟩
  | .hbm, ⟨27, _⟩ => ⟨S_, .f32⟩
  | .hbm, ⟨28, _⟩ => ⟨S64x1x1, .f32⟩
  | .hbm, ⟨29, _⟩ => ⟨S64x1x1, .f32⟩
  | .hbm, ⟨30, _⟩ => ⟨S64x1024x1024, .f32⟩
  | .hbm, ⟨31, _⟩ => ⟨S64x1024x1024, .i1⟩
  | _, _ => ⟨S64x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  reducesTo_S64x1024x256_S64x1024_d2 : S64x1024x256.ReducesTo [2] S64x1024
  h_S_ : 0 < S_.numel
  bcast_S64x1024_S64x1024x1_0_1 : S64x1024.BroadcastsInDim S64x1024x1 (![0, 1] : Fin 2 → Fin S64x1024x1.rank)
  transposes_S64x1024x1_S64x1x1024_0_2_1 : S64x1024x1.Transposes [0, 2, 1] S64x1x1024
  bcast_S64x1024x1_S64x1024x1024_0_1_2 : S64x1024x1.BroadcastsInDim S64x1024x1024 (![0, 1, 2] : Fin 3 → Fin S64x1024x1024.rank)
  bcast_S64x1x1024_S64x1024x1024_0_1_2 : S64x1x1024.BroadcastsInDim S64x1024x1024 (![0, 1, 2] : Fin 3 → Fin S64x1024x1024.rank)
  bcast_S_S64x1024x1024 : S_.BroadcastsInDim S64x1024x1024 (![] : Fin 0 → Fin S64x1024x1024.rank)
  reducesTo_S64x1024x1024_S64_d1_2 : S64x1024x1024.ReducesTo [1, 2] S64
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x1024x1024_0_1_2 : S64x1x1.BroadcastsInDim S64x1024x1024 (![0, 1, 2] : Fin 3 → Fin S64x1024x1024.rank)
  dot_S64x1024x256_S64x1024x256_S64x1024x1024_2_2_1_1_0_0_wf : DotDims.WF S64x1024x256 S64x1024x256 S64x1024x1024 [2] [2] [1] [1] [0] [0]

variable [Facts₀]

def dot_S64x1024x256_S64x1024x256_S64x1024x1024_2_2_1_1_0_0 : DotDims S64x1024x256 S64x1024x256 S64x1024x1024 where
  lhsContracting := [2]
  rhsContracting := [2]
  lhsNonContracting := [1]
  rhsNonContracting := [1]
  lhsBatch := [0]
  rhsBatch := [0]
  wf := dot_S64x1024x256_S64x1024x256_S64x1024x1024_2_2_1_1_0_0_wf

class Facts : Prop extends Facts₀ where

variable [Facts]
-- ==== Proof.Layout.lean ====
/-
  Layout operations read at an index given by coordinates, for the column forms a row reduction with a kept
  axis produces: a vector cast to a column, a column broadcast over the columns of a matrix, and a one-entry
  matrix broadcast over a whole matrix. Each says which entry of the operand the result's entry at
  `(p, c)` is.
-/
import Idealize.ShloMosaic.Lib.ValueIdx
import Idealize.ShloMosaic.Lib.ValueLayout

namespace Cert.Layout

open Idealize.ShloMosaic Idealize.ShloMosaic.ValueIdx

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-entry matrix `[1, 1]` broadcast to `[a, b]` reads its one entry everywhere. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.Layout
-- ==== Proof.Payload.lean ====
/-
  The two kernels' payloads read at an index, at the ideal instance, over variables for the loaded blocks.

  The distance kernel's block holds, at row `p` and column `q`,
  `sqrt (max ε ((Σₖ x_pk² + Σₖ y_qk²) - 2 · Σₖ x_pk · y_qk))`: the row norms are lane sums kept as columns, the second
  one transposed to a row, both broadcast over the matrix; the product is the matrix unit's sum over the contraction
  axis of the truncated blocks (truncation is the identity here), the right one transposed. Its one-entry output is
  the sum over `p` of the sums over `q` of that block. The mask kernel's block holds the comparison of its
  distance block with its one-entry mean, widened to a word.
-/
import proofs.«132827_j25847113187909_1_alg».proof.Proof.Gen.KernelIdeal.Skeleton
import proofs.«132827_j25847113187909_1_alg».proof.Proof.Layout
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.Layout

/-! ## A row's sum of squares, kept as a column -/

/-- The block with its leading unit axis dropped. -/
abbrev rows (v : Vec Ideal S1x1024x256 .f32) : FVec Ideal S1024x256 .f32 :=
  shapeCast S1024x256 v shapeCasts_S1x1024x256_S1024x256

theorem rows_apply (v : Vec Ideal S1x1024x256 .f32) (p : Fin 1024) (k : Fin 256) :
    rows v (ix2 p k) = v (ix3 (0 : Fin 1) p k) :=
  shapeCast_1ab_ab_apply v shapeCasts_S1x1024x256_S1024x256 p k

/-- The lane sum of the squares of a block's rows, as a column. -/
abbrev sqCol (v : Vec Ideal S1x1024x256 .f32) : FVec Ideal S1024x1 .f32 :=
  shapeCast S1024x1 (multiReduction .add [1] S1024 (mulf (rows v) (rows v)) 0x00000000#32 reduces_S1024x256_S1024 (.inl rfl) rfl)
    shapeCasts_S1024_S1024x1

theorem sqCol_apply (v : Vec Ideal S1x1024x256 .f32) (p : Fin 1024) (u : Fin 1) :
    sqCol v (ix2 p u) = ∑ k : Fin 256, v (ix3 (0 : Fin 1) p k) * v (ix3 (0 : Fin 1) p k) := by
  refine (shapeCast_a_a1_apply _ shapeCasts_S1024_S1024x1 p u).trans ?_
  refine (Ideal.multiReduction_add_single _ 0x00000000#32 reduces_S1024x256_S1024 (.inl rfl) rfl (ix1 p)).trans ?_
  refine Finset.sum_congr rfl fun (k : Fin 256) _ => ?_
  have e : (reduces_S1024x256_S1024 : S1024x256.Reduces [1] S1024).lift (ix1 p) k = ix2 p k :=
    funext fun a => Fin.ext (by match a with | ⟨0, _⟩ => rfl | ⟨1, _⟩ => rfl)
  rw [e]
  exact congrArg₂ (· * ·) (rows_apply v p k) (rows_apply v p k)

/-! ## The matrix product: the matrix unit's sum over the contraction axis -/

theorem lhs_prod_0 (i : S1024x1024.Idx) (q : dot_S1024x256_S256x1024_S1024x1024_1_0_0_1_n_n.contr.Idx) :
    (dot_S1024x256_S256x1024_S1024x1024_1_0_0_1_n_n.lhsIdx i q 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_prod_1 (i : S1024x1024.Idx) (q : dot_S1024x256_S256x1024_S1024x1024_1_0_0_1_n_n.contr.Idx) :
    (dot_S1024x256_S256x1024_S1024x1024_1_0_0_1_n_n.lhsIdx i q 1).val = (q ⟨0, by decide⟩).val :=
  dot_S1024x256_S256x1024_S1024x1024_1_0_0_1_n_n.lhsIdx_val_of_single rfl i q
theorem rhs_prod_0 (i : S1024x1024.Idx) (q : dot_S1024x256_S256x1024_S1024x1024_1_0_0_1_n_n.contr.Idx) :
    (dot_S1024x256_S256x1024_S1024x1024_1_0_0_1_n_n.rhsIdx i q 0).val = (q ⟨0, by decide⟩).val :=
  dot_S1024x256_S256x1024_S1024x1024_1_0_0_1_n_n.rhsIdx_val_of_single rfl i q
theorem rhs_prod_1 (i : S1024x1024.Idx) (q : dot_S1024x256_S256x1024_S1024x1024_1_0_0_1_n_n.contr.Idx) :
    (dot_S1024x256_S256x1024_S1024x1024_1_0_0_1_n_n.rhsIdx i q 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of the first block's rows with the second block's rows transposed, into zero. -/
abbrev prod (x0 x1 : Vec Ideal S1x1024x256 .f32) : FVec Ideal S1024x1024 .f32 :=
  matmul dot_S1024x256_S256x1024_S1024x1024_1_0_0_1_n_n none (truncf .bf16 (rows x0) bitsLt_bf16_f32)
    (transpose S256x1024 [1, 0] (truncf .bf16 (rows x1) bitsLt_bf16_f32) transposes_S1024x256_p1_0_S256x1024)
    (constant S1024x1024 .f32 0x00000000#32)

theorem prod_apply (x0 x1 : Vec Ideal S1x1024x256 .f32) (p q : Fin 1024) :
    prod x0 x1 (ix2 p q) = ∑ k : Fin 256, x0 (ix3 (0 : Fin 1) p k) * x1 (ix3 (0 : Fin 1) q k) := by
  refine (Ideal.matmul_constant_zero_apply dot_S1024x256_S256x1024_S1024x1024_1_0_0_1_n_n none _ _ (ix2 p q)).trans ?_
  rw [← Equiv.sum_comp (ValueIdx.contrEquiv1 dot_S1024x256_S256x1024_S1024x1024_1_0_0_1_n_n 256 rfl rfl).symm]
  refine Finset.sum_congr rfl fun (k : Fin 256) _ => ?_
  have hk := ValueIdx.contrEquiv1_symm_val dot_S1024x256_S256x1024_S1024x1024_1_0_0_1_n_n 256 rfl rfl k
  have el : dot_S1024x256_S256x1024_S1024x1024_1_0_0_1_n_n.lhsIdx (ix2 p q) ((ValueIdx.contrEquiv1 dot_S1024x256_S256x1024_S1024x1024_1_0_0_1_n_n 256 rfl rfl).symm k) = ix2 p k := funext fun a => Fin.ext (by
    match a with
    | ⟨0, _⟩ => exact lhs_prod_0 _ _
    | ⟨1, _⟩ => exact (lhs_prod_1 _ _).trans hk)
  have er : dot_S1024x256_S256x1024_S1024x1024_1_0_0_1_n_n.rhsIdx (ix2 p q) ((ValueIdx.contrEquiv1 dot_S1024x256_S256x1024_S1024x1024_1_0_0_1_n_n 256 rfl rfl).symm k) = ix2 k q := funext fun a => Fin.ext (by
    match a with
    | ⟨0, _⟩ => exact (rhs_prod_0 _ _).trans hk
    | ⟨1, _⟩ => exact rhs_prod_1 _ _)
  rw [el, er]
  refine congrArg₂ (· * ·) (rows_apply x0 p k) ?_
  exact (transpose_ix2_apply _ transposes_S1024x256_p1_0_S256x1024 k q).trans (rows_apply x1 q k)

/-! ## The distance block -/

/-- The distance block at row `p`, column `q`. -/
theorem pay1_apply (x0 x1 : Vec Ideal S1x1024x256 .f32) (p q : Fin 1024) :
    k0_pay1 (F := Ideal) x0 x1 (ix2 p q)
      = Ideal.sqrt (max (Ideal.ofBits .f32 0x2B8CBCCC#32)
          (((∑ k : Fin 256, x0 (ix3 (0 : Fin 1) p k) * x0 (ix3 (0 : Fin 1) p k))
              + ∑ k : Fin 256, x1 (ix3 (0 : Fin 1) q k) * x1 (ix3 (0 : Fin 1) q k))
            - Ideal.ofBits .f32 0x40000000#32 * ∑ k : Fin 256, x0 (ix3 (0 : Fin 1) p k) * x1 (ix3 (0 : Fin 1) q k))) := by
  have h : k0_pay1 (F := Ideal) x0 x1 (ix2 p q)
      = Ideal.sqrt (max (Ideal.ofBits .f32 0x2B8CBCCC#32)
          ((broadcastTo S1024x1024 (sqCol x0) broadcasts_S1024x1_S1024x1024 (ix2 p q)
              + broadcastTo S1024x1024 (transpose S1x1024 [1, 0] (sqCol x1) transposes_S1024x1_p1_0_S1x1024) broadcasts_S1x1024_S1024x1024 (ix2 p q))
            - Ideal.ofBits .f32 0x40000000#32 * prod x0 x1 (ix2 p q))) := rfl
  rw [h, broadcastTo_a1_ab_apply, broadcastTo_1b_ab_apply, transpose_ix2_apply, sqCol_apply, sqCol_apply, prod_apply]

/-- The stored block is the distance block under a leading unit axis. -/
theorem pay2_apply (x0 x1 : Vec Ideal S1x1024x256 .f32) (u : Fin 1) (p q : Fin 1024) :
    k0_pay2 (F := Ideal) x0 x1 (ix3 u p q) = k0_pay1 (F := Ideal) x0 x1 (ix2 p q) := by
  unfold k0_pay2
  exact shapeCast_ab_1ab_apply _ shapeCasts_S1024x1024_S1x1024x1024 u p q

/-- The one-entry output: the rows' sums of the distance block, summed. -/
theorem pay3_apply (x0 x1 : Vec Ideal S1x1024x256 .f32) (j : S1x1x1.Idx) :
    k0_pay3 (F := Ideal) x0 x1 j = ∑ p : Fin 1024, ∑ q : Fin 1024, k0_pay1 (F := Ideal) x0 x1 (ix2 p q) := by
  have hj : j = ix3 (0 : Fin 1) (0 : Fin 1) (0 : Fin 1) := funext fun a => Fin.ext (by
    match a with
    | ⟨0, _⟩ => have h : (j 0).val < 1 := (j 0).isLt; show (j 0).val = 0; omega
    | ⟨1, _⟩ => have h : (j 1).val < 1 := (j 1).isLt; show (j 1).val = 0; omega
    | ⟨2, _⟩ => have h : (j 2).val < 1 := (j 2).isLt; show (j 2).val = 0; omega)
  subst hj
  unfold k0_pay3
  refine (shapeCast_ab_1ab_apply _ shapeCasts_S1x1_S1x1x1 0 0 0).trans ?_
  refine (shapeCast_a_1a_apply _ shapeCasts_S1_S1x1 0 0).trans ?_
  refine (Ideal.multiReduction_add_single _ 0x00000000#32 reduces_S1024x1_S1 (.inl rfl) rfl (ix1 (0 : Fin 1))).trans ?_
  refine Finset.sum_congr rfl fun (p : Fin 1024) _ => ?_
  have e : (reduces_S1024x1_S1 : S1024x1.Reduces [0] S1).lift (ix1 (0 : Fin 1)) p = ix2 p (0 : Fin 1) :=
    funext fun a => Fin.ext (by match a with | ⟨0, _⟩ => rfl | ⟨1, _⟩ => rfl)
  rw [e]
  refine (shapeCast_a_a1_apply _ shapeCasts_S1024_S1024x1 p 0).trans ?_
  refine (Ideal.multiReduction_add_single _ 0x00000000#32 reduces_S1024x1024_S1024 (.inl rfl) rfl (ix1 p)).trans ?_
  refine Finset.sum_congr rfl fun (q : Fin 1024) _ => ?_
  have e' : (reduces_S1024x1024_S1024 : S1024x1024.Reduces [1] S1024).lift (ix1 p) q = ix2 p q :=
    funext fun a => Fin.ext (by match a with | ⟨0, _⟩ => rfl | ⟨1, _⟩ => rfl)
  rw [e']

/-! ## The mask block -/

/-- The mask kernel's stored word at `(p, q)`: the comparison of the distance with the one-entry mean, widened. -/
theorem mask_apply (v0 : Vec Ideal S1x1024x1024 .f32) (v2 : Vec Ideal S1x1x1 .f32) (u : Fin 1) (p q : Fin 1024) :
    k1_pay1 (F := Ideal) v0 v2 (ix3 u p q)
      = (Ideal.cmp .ole (v0 (ix3 (0 : Fin 1) p q)) (v2 (ix3 (0 : Fin 1) (0 : Fin 1) (0 : Fin 1)))).setWidth 32 := by
  unfold k1_pay1
  refine (shapeCast_ab_1ab_apply _ shapeCasts_S1024x1024_S1x1024x1024 u p q).trans ?_
  show (Ideal.cmp .ole (shapeCast S1024x1024 v0 shapeCasts_S1x1024x1024_S1024x1024 (ix2 p q))
      (broadcastTo S1024x1024 (shapeCast S1x1 v2 shapeCasts_S1x1x1_S1x1) broadcasts_S1x1_S1024x1024 (ix2 p q))).setWidth 32 = _
  rw [shapeCast_1ab_ab_apply, broadcastTo_11_ab_apply, shapeCast_1ab_ab_apply]

end Cert.KernelIdeal.Payload

end
-- ==== Proof.Spec.lean ====
/-
  What the two programs compute, as functions of the two argument arrays `x, y : [64, 1024, 256]` over the
  extended reals, index by index.

  For a batch `b`, a row `p` of `x` and a row `q` of `y`:
  `dist b p q = sqrt (max ε ((|x_bp|² + |y_bq|²) - 2 · ⟨x_bp, y_bq⟩))`, with `|·|²` and `⟨·,·⟩` the sums over the
  256 features; `total b` is the sum of `dist b p q` over all `(p, q)`, `mean b = total b / 2²⁰`, and the adjacency
  bit at `(b, p, q)` says whether `dist b p q ≤ mean b`. The three float literals (ε, 2, 2²⁰) stay the words the
  programs print: both programs print the same words, so they are never evaluated.
-/
import Idealize.ShloMosaic.PureOps.Ideal
import Idealize.ShloMosaic.Lib.ValueIdx

noncomputable section

namespace Cert.Spec

open Idealize.ShloMosaic Idealize.ShloMosaic.ValueIdx

/-- The shape of each argument and of each result. -/
abbrev SArg : Shape := ⟨3, ![64, 1024, 256]⟩
abbrev SRes : Shape := ⟨3, ![64, 1024, 1024]⟩

/-- The squared norm of row `p` of batch `b`. -/
def sqNorm (x : SArg.Idx → EReal) (b : Fin 64) (p : Fin 1024) : EReal :=
  ∑ k : Fin 256, x (ix3 b p k) * x (ix3 b p k)

/-- The inner product of row `p` of `x` and row `q` of `y`, in batch `b`. -/
def rowDot (x y : SArg.Idx → EReal) (b : Fin 64) (p q : Fin 1024) : EReal :=
  ∑ k : Fin 256, x (ix3 b p k) * y (ix3 b q k)

/-- The clipped distance between the two rows. -/
def distAt (x y : SArg.Idx → EReal) (b : Fin 64) (p q : Fin 1024) : EReal :=
  Ideal.sqrt (max (Ideal.ofBits .f32 0x2B8CBCCC#32)
    ((sqNorm x b p + sqNorm y b q) - Ideal.ofBits .f32 0x40000000#32 * rowDot x y b p q))

/-- The distance array. -/
def dist (x y : SArg.Idx → EReal) : SRes.Idx → EReal := fun i => distAt x y (i 0) (i 1) (i 2)

/-- The sum of a batch's distances, rows first. -/
def total (x y : SArg.Idx → EReal) (b : Fin 64) : EReal :=
  ∑ p : Fin 1024, ∑ q : Fin 1024, distAt x y b p q

/-- A batch's mean distance. -/
def mean (x y : SArg.Idx → EReal) (b : Fin 64) : EReal :=
  Ideal.div (total x y b) (Ideal.ofBits .f32 0x49800000#32)

/-- The batches' totals and means, as the `[64, 1, 1]` arrays the programs keep them in. -/
abbrev SCol : Shape := ⟨3, ![64, 1, 1]⟩
def totals (x y : SArg.Idx → EReal) : SCol.Idx → EReal := fun i => total x y (i 0)
def means (x y : SArg.Idx → EReal) : SCol.Idx → EReal := fun i => mean x y (i 0)

/-- The adjacency bit: the distance is at most its batch's mean. -/
def adj (x y : SArg.Idx → EReal) : SRes.Idx → BitVec 1 :=
  fun i => Ideal.cmp .ole (distAt x y (i 0) (i 1) (i 2)) (mean x y (i 0))

end Cert.Spec

end
-- ==== Proof.Region0.lean ====
/-
  The first kernel's two result arrays after its 64 grid points, as functions of the two arrays it reads.

  Point `t` reads batch `t` of each input (its block index is `(t, 0, 0)`), writes back the `[1024, 1024]` distance
  block of that batch into batch `t` of the distance array, and the block's total into entry `t` of the totals. The
  blocks tile both arrays, so after the last point the distance array is `dist` and the totals are `totals`.
-/
import proofs.«132827_j25847113187909_1_alg».proof.Proof.Gen.KernelIdeal.Frame
import proofs.«132827_j25847113187909_1_alg».proof.Proof.Payload
import proofs.«132827_j25847113187909_1_alg».proof.Proof.Spec
import Idealize.ShloMosaic.Lib.Pipeline.Value

noncomputable section

namespace Cert.KernelIdeal.Region0

open Cert.KernelIdeal Cert.KernelIdeal.Gen Cert.KernelIdeal.Payload Cert.Spec
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The two arrays the kernel reads, and their blocks at a point, at their literal types. -/
abbrev xarr (c : Dev nD) : Vec Ideal S64x1024x256 .f32 := V c main_arg0
abbrev yarr (c : Dev nD) : Vec Ideal S64x1024x256 .f32 := V c main_arg1
abbrev xblk (c : Dev nD) (t : Fin cfg0.N) : Vec Ideal S1x1024x256 .f32 := iblk0 V c 0 t
abbrev yblk (c : Dev nD) (t : Fin cfg0.N) : Vec Ideal S1x1024x256 .f32 := iblk0 V c 1 t

/-- The batch a grid point works on. -/
abbrev bat (t : Fin cfg0.N) : Fin 64 := ⟨t.val, Nat.lt_of_lt_of_eq t.isLt N_0⟩

/-- Every window's block index at point `t` is `(t, 0, 0)`: decided over the 64 points. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- An entry of the first input's block at point `t` is the array's entry in batch `t`. -/
theorem xblk_apply (c : Dev nD) (t : Fin cfg0.N) (p : Fin 1024) (k : Fin 256) :
    xblk V c t (ix3 (0 : Fin 1) p k) = xarr V c (ix3 (bat t) p k) := by
  obtain ⟨⟨e0, e1, e2⟩, -⟩ := idx_facts t
  show V c main_arg0 (((cfg0.win 0).blk t).view.emb (ix3 (0 : Fin 1) p k)) = V c main_arg0 (ix3 (bat t) p k)
  refine congrArg (V c main_arg0) (funext fun a => Fin.ext ?_)
  match a with
  | ⟨0, _⟩ => show win0_0.index t (0 : Fin 3) * 1 + 1 * 0 = t.val; omega
  | ⟨1, _⟩ => show win0_0.index t (1 : Fin 3) * 1024 + 1 * p.val = p.val; omega
  | ⟨2, _⟩ => show win0_0.index t (2 : Fin 3) * 256 + 1 * k.val = k.val; omega

theorem yblk_apply (c : Dev nD) (t : Fin cfg0.N) (p : Fin 1024) (k : Fin 256) :
    yblk V c t (ix3 (0 : Fin 1) p k) = yarr V c (ix3 (bat t) p k) := by
  obtain ⟨-, ⟨e0, e1, e2⟩, -⟩ := idx_facts t
  show V c main_arg1 (((cfg0.win 1).blk t).view.emb (ix3 (0 : Fin 1) p k)) = V c main_arg1 (ix3 (bat t) p k)
  refine congrArg (V c main_arg1) (funext fun a => Fin.ext ?_)
  match a with
  | ⟨0, _⟩ => show win0_1.index t (0 : Fin 3) * 1 + 1 * 0 = t.val; omega
  | ⟨1, _⟩ => show win0_1.index t (1 : Fin 3) * 1024 + 1 * p.val = p.val; omega
  | ⟨2, _⟩ => show win0_1.index t (2 : Fin 3) * 256 + 1 * k.val = k.val; omega

/-- The distance block of point `t` is batch `t` of `dist`. -/
theorem pay1_at (c : Dev nD) (t : Fin cfg0.N) (p q : Fin 1024) :
    k0_pay1 (F := Ideal) (xblk V c t) (yblk V c t) (ix2 p q) = distAt (xarr V c) (yarr V c) (bat t) p q := by
  refine (pay1_apply (xblk V c t) (yblk V c t) p q).trans ?_
  unfold distAt sqNorm rowDot
  simp only [xblk_apply, yblk_apply]

/-- The total of point `t`'s distance block is batch `t`'s total. -/
theorem pay3_at (c : Dev nD) (t : Fin cfg0.N) (j : S1x1x1.Idx) :
    k0_pay3 (F := Ideal) (xblk V c t) (yblk V c t) j = total (xarr V c) (yarr V c) (bat t) := by
  refine (pay3_apply (xblk V c t) (yblk V c t) j).trans ?_
  unfold total
  exact Finset.sum_congr rfl fun p _ => Finset.sum_congr rfl fun q _ => pay1_at V c t p q

/-! ## The distance array: window 2 -/

/-- An entry of point `t`'s block of the distance array lies in batch `t`. -/
theorem emb2 (t : Fin cfg0.N) (u : Fin 1) (p q : Fin 1024) :
    (((cfg0.win 2).blk t).view.emb (ix3 u p q) : S64x1024x1024.Idx) = ix3 (bat t) p q := by
  obtain ⟨-, -, ⟨e0, e1, e2⟩, -⟩ := idx_facts t
  have hu : u.val = 0 := by omega
  refine funext fun a => Fin.ext ?_
  match a with
  | ⟨0, _⟩ => show win0_2.index t (0 : Fin 3) * 1 + 1 * u.val = t.val; omega
  | ⟨1, _⟩ => show win0_2.index t (1 : Fin 3) * 1024 + 1 * p.val = p.val; omega
  | ⟨2, _⟩ => show win0_2.index t (2 : Fin 3) * 1024 + 1 * q.val = q.val; omega

/-- What point `t` writes back to the distance array is block `t` of `dist`. -/
theorem flushed2_eq (c : Dev nD) (t : Fin cfg0.N) :
    (dat0 V c).flushed 2 t = ((cfg0.win 2).blk t).view.read (Elt Ideal) (dist (xarr V c) (yarr V c)) := by
  show (cfg0.win 2).cut (grid0.coords t) ((dat0 V c).after 2 t) = _
  rw [after0_2]
  unfold out0_2
  rw [View.canon_unit_zero hz3]
  simp only [View.ld_unit_zero (S := S1x1024x256) hz3]
  funext j
  obtain ⟨u, p, q, rfl⟩ : ∃ (u : Fin 1) (p q : Fin 1024), j = ix3 u p q := ⟨j 0, j 1, j 2, eq_ix3 j⟩
  show k0_pay2 (F := Ideal) (xblk V c t) (yblk V c t) (ix3 u p q)
    = dist (xarr V c) (yarr V c) (((cfg0.win 2).blk t).view.emb (ix3 u p q))
  rw [emb2]
  refine (pay2_apply (xblk V c t) (yblk V c t) u p q).trans ?_
  exact pay1_at V c t p q

/-- An index of the distance array is in point `t`'s block iff each coordinate is in the block's range. -/
theorem mem_blk2 (t : Fin cfg0.N) (i : S64x1024x1024.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v0_0).slice (win0_2.rect t)).set ↔ _
  rw [View.set_slice_whole, Rect.mem_set_unit]
  exact Iff.rfl

/-- Every entry of the distance array is in its batch's block. -/
theorem cover2 (i : S64x1024x1024.Idx) :
    ∃ t : Fin cfg0.N, (cfg0.win 2).flush t = true ∧ i ∈ ((cfg0.win 2).blk t).view.set := by
  have h0 : (i 0).val < 64 := (i 0).isLt
  have h1 : (i 1).val < 1024 := (i 1).isLt
  have h2 : (i 2).val < 1024 := (i 2).isLt
  let t : Fin cfg0.N := ⟨(i 0).val, Nat.lt_of_lt_of_eq h0 N_0.symm⟩
  obtain ⟨-, -, ⟨e0, e1, e2⟩, -⟩ := idx_facts t
  have e0' : win0_2.index t (0 : Fin 3) = (i 0).val := e0
  refine ⟨t, flush0_2 t, (mem_blk2 t i).mpr fun a => ?_⟩
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- After the last point the distance array is `dist` of the two arrays read. -/
theorem final2 (c : Dev nD) : (dat0 V c).arrAt 2 cfg0.N = dist (xarr V c) (yarr V c) :=
  (dat0 V c).arrAt_eq_of_cover 2 (dist (xarr V c) (yarr V c)) (fun t _ => flushed2_eq V c t) cover2

/-! ## The totals: window 3 -/

theorem emb3 (t : Fin cfg0.N) (j : S1x1x1.Idx) :
    (((cfg0.win 3).blk t).view.emb j : S64x1x1.Idx) = ix3 (bat t) (0 : Fin 1) (0 : Fin 1) := by
  obtain ⟨-, -, -, ⟨e0, e1, e2⟩⟩ := idx_facts t
  have h0 : (j 0).val < 1 := (j 0).isLt
  have h1 : (j 1).val < 1 := (j 1).isLt
  have h2 : (j 2).val < 1 := (j 2).isLt
  refine funext fun a => Fin.ext ?_
  match a with
  | ⟨0, _⟩ => show win0_3.index t (0 : Fin 3) * 1 + 1 * (j 0).val = t.val; omega
  | ⟨1, _⟩ => show win0_3.index t (1 : Fin 3) * 1 + 1 * (j 1).val = 0; omega
  | ⟨2, _⟩ => show win0_3.index t (2 : Fin 3) * 1 + 1 * (j 2).val = 0; omega

/-- What point `t` writes back to the totals is entry `t` of `totals`. -/
theorem flushed3_eq (c : Dev nD) (t : Fin cfg0.N) :
    (dat0 V c).flushed 3 t = ((cfg0.win 3).blk t).view.read (Elt Ideal) (totals (xarr V c) (yarr V c)) := by
  show (cfg0.win 3).cut (grid0.coords t) ((dat0 V c).after 3 t) = _
  rw [after0_3]
  unfold out0_3
  rw [View.canon_unit_zero hz3]
  simp only [View.ld_unit_zero (S := S1x1024x256) hz3]
  funext j
  show k0_pay3 (F := Ideal) (xblk V c t) (yblk V c t) j
    = totals (xarr V c) (yarr V c) (((cfg0.win 3).blk t).view.emb j)
  rw [emb3]
  exact pay3_at V c t j

theorem mem_blk3 (t : Fin cfg0.N) (i : S64x1x1.Idx) :
    i ∈ ((cfg0.win 3).blk t).view.set ↔ ∀ a : Fin 3, win0_3.index t a * S1x1x1.size a ≤ (i a).val ∧ (i a).val < win0_3.index t a * S1x1x1.size a + S1x1x1.size a := by
  show i ∈ ((View.whole main_v0_1).slice (win0_3.rect t)).set ↔ _
  rw [View.set_slice_whole, Rect.mem_set_unit]
  exact Iff.rfl

theorem cover3 (i : S64x1x1.Idx) :
    ∃ t : Fin cfg0.N, (cfg0.win 3).flush t = true ∧ i ∈ ((cfg0.win 3).blk t).view.set := by
  have h0 : (i 0).val < 64 := (i 0).isLt
  have h1 : (i 1).val < 1 := (i 1).isLt
  have h2 : (i 2).val < 1 := (i 2).isLt
  let t : Fin cfg0.N := ⟨(i 0).val, Nat.lt_of_lt_of_eq h0 N_0.symm⟩
  obtain ⟨-, -, -, ⟨e0, e1, e2⟩⟩ := idx_facts t
  have e0' : win0_3.index t (0 : Fin 3) = (i 0).val := e0
  refine ⟨t, flush0_3 t, (mem_blk3 t i).mpr fun a => ?_⟩
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1 ≤ (i 1).val ∧ (i 1).val < win0_3.index t (1 : Fin 3) * 1 + 1; omega
  | ⟨2, _⟩ => show win0_3.index t (2 : Fin 3) * 1 ≤ (i 2).val ∧ (i 2).val < win0_3.index t (2 : Fin 3) * 1 + 1; omega

/-- After the last point the totals array is `totals` of the two arrays read. -/
theorem final3 (c : Dev nD) : (dat0 V c).arrAt 3 cfg0.N = totals (xarr V c) (yarr V c) :=
  (dat0 V c).arrAt_eq_of_cover 3 (totals (xarr V c) (yarr V c)) (fun t _ => flushed3_eq V c t) cover3

end Cert.KernelIdeal.Region0

end
-- ==== Proof.Region1.lean ====
/-
  The second kernel's result array after its 64 grid points, as a function of the two arrays it reads.

  Point `t` reads batch `t` of the distance array and entry `t` of the means, and writes back, into batch `t` of a
  word array, the comparison "distance ≤ mean" widened to a word. The blocks tile the array, so after the last point
  the word array holds that comparison everywhere.
-/
import proofs.«132827_j25847113187909_1_alg».proof.Proof.Gen.KernelIdeal.Frame
import proofs.«132827_j25847113187909_1_alg».proof.Proof.Payload
import Idealize.ShloMosaic.Lib.Pipeline.Value

noncomputable section

namespace Cert.KernelIdeal.Region1

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl

/-- The two arrays the kernel reads, and their blocks at a point, at their literal types. -/
abbrev darr (c : Dev nD) : Vec Ideal S64x1024x1024 .f32 := V c main_v0_0
abbrev marr (c : Dev nD) : Vec Ideal S64x1x1 .f32 := V c main_v2
abbrev dblk (c : Dev nD) (t : Fin cfg1.N) : Vec Ideal S1x1024x1024 .f32 := iblk1 V c 0 t
abbrev mblk (c : Dev nD) (t : Fin cfg1.N) : Vec Ideal S1x1x1 .f32 := iblk1 V c 1 t

/-- The batch a grid point works on. -/
abbrev bat (t : Fin cfg1.N) : Fin 64 := ⟨t.val, Nat.lt_of_lt_of_eq t.isLt N_1⟩

/-- The word at `(b, p, q)`: is the distance at most the batch's mean. -/
def wordAt (d : S64x1024x1024.Idx → EReal) (a : S64x1x1.Idx → EReal) (b : Fin 64) (p q : Fin 1024) : BitVec 32 :=
  (Ideal.cmp .ole (d (ix3 b p q)) (a (ix3 b (0 : Fin 1) (0 : Fin 1)))).setWidth 32

/-- The word array. -/
def words (d : S64x1024x1024.Idx → EReal) (a : S64x1x1.Idx → EReal) : S64x1024x1024.Idx → BitVec 32 :=
  fun i => wordAt d a (i 0) (i 1) (i 2)

/-- Every window's block index at point `t` is `(t, 0, 0)`: decided over the 64 points. -/
theorem idx_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0) :=
  (by decide +kernel : ∀ t : Fin grid1.N, _)

theorem dblk_apply (c : Dev nD) (t : Fin cfg1.N) (p q : Fin 1024) :
    dblk V c t (ix3 (0 : Fin 1) p q) = darr V c (ix3 (bat t) p q) := by
  obtain ⟨⟨e0, e1, e2⟩, -⟩ := idx_facts t
  show V c main_v0_0 (((cfg1.win 0).blk t).view.emb (ix3 (0 : Fin 1) p q)) = V c main_v0_0 (ix3 (bat t) p q)
  refine congrArg (V c main_v0_0) (funext fun a => Fin.ext ?_)
  match a with
  | ⟨0, _⟩ => show win1_0.index t (0 : Fin 3) * 1 + 1 * 0 = t.val; omega
  | ⟨1, _⟩ => show win1_0.index t (1 : Fin 3) * 1024 + 1 * p.val = p.val; omega
  | ⟨2, _⟩ => show win1_0.index t (2 : Fin 3) * 1024 + 1 * q.val = q.val; omega

theorem mblk_apply (c : Dev nD) (t : Fin cfg1.N) :
    mblk V c t (ix3 (0 : Fin 1) (0 : Fin 1) (0 : Fin 1)) = marr V c (ix3 (bat t) (0 : Fin 1) (0 : Fin 1)) := by
  obtain ⟨-, ⟨e0, e1, e2⟩, -⟩ := idx_facts t
  show V c main_v2 (((cfg1.win 1).blk t).view.emb (ix3 (0 : Fin 1) (0 : Fin 1) (0 : Fin 1))) = V c main_v2 (ix3 (bat t) (0 : Fin 1) (0 : Fin 1))
  refine congrArg (V c main_v2) (funext fun a => Fin.ext ?_)
  match a with
  | ⟨0, _⟩ => show win1_1.index t (0 : Fin 3) * 1 + 1 * 0 = t.val; omega
  | ⟨1, _⟩ => show win1_1.index t (1 : Fin 3) * 1 + 1 * 0 = 0; omega
  | ⟨2, _⟩ => show win1_1.index t (2 : Fin 3) * 1 + 1 * 0 = 0; omega

/-- An entry of point `t`'s block of the word array lies in batch `t`. -/
theorem emb2 (t : Fin cfg1.N) (u : Fin 1) (p q : Fin 1024) :
    (((cfg1.win 2).blk t).view.emb (ix3 u p q) : S64x1024x1024.Idx) = ix3 (bat t) p q := by
  obtain ⟨-, -, ⟨e0, e1, e2⟩⟩ := idx_facts t
  have hu : u.val = 0 := by omega
  refine funext fun a => Fin.ext ?_
  match a with
  | ⟨0, _⟩ => show win1_2.index t (0 : Fin 3) * 1 + 1 * u.val = t.val; omega
  | ⟨1, _⟩ => show win1_2.index t (1 : Fin 3) * 1024 + 1 * p.val = p.val; omega
  | ⟨2, _⟩ => show win1_2.index t (2 : Fin 3) * 1024 + 1 * q.val = q.val; omega

/-- What point `t` writes back is block `t` of the word array. -/
theorem flushed2_eq (c : Dev nD) (t : Fin cfg1.N) :
    (dat1 V c).flushed 2 t = ((cfg1.win 2).blk t).view.read (Elt Ideal) (words (darr V c) (marr V c)) := by
  show (cfg1.win 2).cut (grid1.coords t) ((dat1 V c).after 2 t) = _
  rw [after1_2]
  unfold out1_2
  rw [View.canon_unit_zero hz3]
  simp only [View.ld_unit_zero (S := S1x1024x1024) hz3, View.ld_unit_zero (S := S1x1x1) hz3]
  funext j
  obtain ⟨u, p, q, rfl⟩ : ∃ (u : Fin 1) (p q : Fin 1024), j = ix3 u p q := ⟨j 0, j 1, j 2, eq_ix3 j⟩
  show k1_pay1 (F := Ideal) (dblk V c t) (mblk V c t) (ix3 u p q)
    = words (darr V c) (marr V c) (((cfg1.win 2).blk t).view.emb (ix3 u p q))
  rw [emb2]
  refine (mask_apply (dblk V c t) (mblk V c t) u p q).trans ?_
  rw [dblk_apply, mblk_apply]
  rfl

theorem mem_blk2 (t : Fin cfg1.N) (i : S64x1024x1024.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v3).slice (win1_2.rect t)).set ↔ _
  rw [View.set_slice_whole, Rect.mem_set_unit]
  exact Iff.rfl

theorem cover2 (i : S64x1024x1024.Idx) :
    ∃ t : Fin cfg1.N, (cfg1.win 2).flush t = true ∧ i ∈ ((cfg1.win 2).blk t).view.set := by
  have h0 : (i 0).val < 64 := (i 0).isLt
  have h1 : (i 1).val < 1024 := (i 1).isLt
  have h2 : (i 2).val < 1024 := (i 2).isLt
  let t : Fin cfg1.N := ⟨(i 0).val, Nat.lt_of_lt_of_eq h0 N_1.symm⟩
  obtain ⟨-, -, ⟨e0, e1, e2⟩⟩ := idx_facts t
  have e0' : win1_2.index t (0 : Fin 3) = (i 0).val := e0
  refine ⟨t, flush1_2 t, (mem_blk2 t i).mpr fun a => ?_⟩
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 1024 ≤ (i 2).val ∧ (i 2).val < win1_2.index t (2 : Fin 3) * 1024 + 1024; omega

/-- After the last point the word array holds the comparison of the two arrays read. -/
theorem final2 (c : Dev nD) : (dat1 V c).arrAt 2 cfg1.N = words (darr V c) (marr V c) :=
  (dat1 V c).arrAt_eq_of_cover 2 (words (darr V c) (marr V c)) (fun t _ => flushed2_eq V c t) cover2

end Cert.KernelIdeal.Region1

end
-- ==== Proof.Fold.lean ====
/-
  The two result arrays after the whole of @main, as functions of the two argument arrays.

  The fold through @main's segments: the first kernel leaves the distance array and the totals; the host divides the
  totals by 2²⁰ into the means; the second kernel leaves the comparison words; the host turns a nonzero word back
  into the bit. The distance array is written by the first kernel only, and read, never written, by what follows.
-/
import proofs.«132827_j25847113187909_1_alg».proof.Proof.Gen.KernelIdeal.Frame
import proofs.«132827_j25847113187909_1_alg».proof.Proof.Region0
import proofs.«132827_j25847113187909_1_alg».proof.Proof.Region1
import proofs.«132827_j25847113187909_1_alg».proof.Proof.Spec
import Idealize.ShloMosaic.Lib.StableHlo.Run
import Idealize.ShloMosaic.Lib.Pipeline.Value

noncomputable section

namespace Cert.KernelIdeal.Fold

open Cert.KernelIdeal Cert.KernelIdeal.Gen Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two argument arrays as launched. -/
abbrev xin (c : Dev nD) : Vec Ideal S64x1024x256 .f32 := m ((c : Thread nD τ).loc main_arg0)
abbrev yin (c : Dev nD) : Vec Ideal S64x1024x256 .f32 := m ((c : Thread nD τ).loc main_arg1)

/-! ## After the first kernel -/

theorem W1_dist (c : Dev nD) : W1 m ρ c (Proc.devRef .tc main_v0_0) = dist (xin m c) (yin m c) :=
  (W1_arr m ρ c 2).trans (Region0.final2 (V0 m ρ) c)

theorem W1_totals (c : Dev nD) : W1 m ρ c (Proc.devRef .tc main_v0_1) = totals (xin m c) (yin m c) :=
  (W1_arr m ρ c 3).trans (Region0.final3 (V0 m ρ) c)

/-! ## After the division -/

theorem W2_dist (c : Dev nD) : W2 m ρ c (Proc.devRef .tc main_v0_0) = dist (xin m c) (yin m c) :=
  (StableHlo.after_of_forall_not_mem (b := Proc.devRef .tc main_v0_0) _ _ (List.forall_iff_forall_mem.mp (by
    simp only [hostOps1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans (W1_dist m ρ c)

theorem W2_means (c : Dev nD) : W2 m ρ c (Proc.devRef .tc main_v2) = means (xin m c) (yin m c) := by
  show StableHlo.after hostOps1 (W1 m ρ c) (Proc.devRef .tc main_v2) = _
  after_results
  rw [W1_totals]
  rfl

/-! ## After the second kernel -/

theorem W3_dist (c : Dev nD) : W3 m ρ c (Proc.devRef .tc main_v0_0) = dist (xin m c) (yin m c) :=
  (W3_arr m ρ c 0).trans ((((dat1 (V2 m ρ) c).arrAt_in 0 rfl _).trans (A_eq1 (V2 m ρ) c 0)).trans (W2_dist m ρ c))

theorem W3_words (c : Dev nD) :
    W3 m ρ c (Proc.devRef .tc main_v3) = Region1.words (dist (xin m c) (yin m c)) (means (xin m c) (yin m c)) := by
  refine (W3_arr m ρ c 2).trans ((Region1.final2 (V2 m ρ) c).trans ?_)
  show Region1.words (W2 m ρ c (Proc.devRef .tc main_v0_0)) (W2 m ρ c (Proc.devRef .tc main_v2)) = _
  rw [W2_dist, W2_means]

/-! ## After the last host operations -/

/-- A bit widened to a word is nonzero exactly when the bit is set. -/
theorem ne_zero_of_widen (b : BitVec 1) : IntOp.cmpi .ne (b.setWidth 32) 0#32 = b := by
  by_cases h : b = 1#1
  · subst h; decide
  · rw [ValueIdx.eq_zero_of_ne_one h]; decide

theorem W4_dist (c : Dev nD) : W4 m ρ c (Proc.devRef .tc main_v0_0) = dist (xin m c) (yin m c) :=
  (StableHlo.after_of_forall_not_mem (b := Proc.devRef .tc main_v0_0) _ _ (List.forall_iff_forall_mem.mp (by
    simp only [hostOps2, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))).trans (W3_dist m ρ c)

theorem W4_adj (c : Dev nD) : W4 m ρ c (Proc.devRef .tc main_v6) = adj (xin m c) (yin m c) := by
  show StableHlo.after hostOps2 (W3 m ρ c) (Proc.devRef .tc main_v6) = _
  after_results
  rw [W3_words]
  funext i
  obtain ⟨b, p, q, rfl⟩ : ∃ (b : Fin 64) (p q : Fin 1024), i = ix3 b p q := ⟨i 0, i 1, i 2, eq_ix3 i⟩
  show IntOp.cmpi .ne ((Ideal.cmp .ole (distAt (xin m c) (yin m c) b p q) (mean (xin m c) (yin m c) b)).setWidth 32) 0#32
    = Ideal.cmp .ole (distAt (xin m c) (yin m c) b p q) (mean (xin m c) (yin m c) b)
  exact ne_zero_of_widen _

end Cert.KernelIdeal.Fold

end
-- ==== Proof.RefValue.lean ====
/-
  The reference's two results are `dist` and `adj` of its arguments, at the ideal instance.

  Each stage of the reference is read at an index: the two row norms are host sums over the feature axis (the initial
  value is the zero word, which is `0`), the second carried to a row by a transpose, both broadcast; the batched
  `dot_general` is the sum over the feature axis; the clip is a maximum with the broadcast literal; the square root is the
  same function as the kernel's. The mean's numerator is the host sum over BOTH trailing axes: the indices that drop to
  batch `b` are exactly the `(b, p, q)`, so that sum is the sum over `p` of the sums over `q` (any order: addition of
  extended reals is commutative and associative).
-/
import proofs.«132827_j25847113187909_1_alg».proof.Proof.Gen.ReferenceIdeal.Run
import proofs.«132827_j25847113187909_1_alg».proof.Proof.Gen.ReferenceIdeal.Read
import proofs.«132827_j25847113187909_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx

/-! ## The distance array -/

theorem idx_sq0 (b : Fin 64) (p q : Fin 1024) (k : Fin 256) :
    idx_main_v1 (idx_main_v2 (idx_main_v7 (ix3 b p q))) k = ix3 b p k :=
  funext fun a => Fin.ext (by match a with | ⟨0, _⟩ => rfl | ⟨1, _⟩ => rfl | ⟨2, _⟩ => rfl)

theorem idx_sq1 (b : Fin 64) (p q : Fin 1024) (k : Fin 256) :
    idx_main_v4 (idx_main_v5 (idx_main_v6 (idx_main_v8 (ix3 b p q)))) k = ix3 b q k :=
  funext fun a => Fin.ext (by match a with | ⟨0, _⟩ => rfl | ⟨1, _⟩ => rfl | ⟨2, _⟩ => rfl)

theorem idx_dotl (b : Fin 64) (p q : Fin 1024) (k : Fin 256) : lidx_main_v10 (ix3 b p q) k = ix3 b p k :=
  funext fun a => Fin.ext (by match a with | ⟨0, _⟩ => rfl | ⟨1, _⟩ => rfl | ⟨2, _⟩ => rfl)

theorem idx_dotr (b : Fin 64) (p q : Fin 1024) (k : Fin 256) : ridx_main_v10 (ix3 b p q) k = ix3 b q k :=
  funext fun a => Fin.ext (by match a with | ⟨0, _⟩ => rfl | ⟨1, _⟩ => rfl | ⟨2, _⟩ => rfl)

/-- The reference's distance at `(b, p, q)`. -/
theorem dist_at (x0 x1 : (⟨S64x1024x256, .f32⟩ : BufTy).Contents (Elt Ideal)) (b : Fin 64) (p q : Fin 1024) :
    val_main_v15 (F := Ideal) x0 x1 (ix3 b p q) = distAt x0 x1 b p q := by
  rw [val_main_v15_apply, val_main_v14_apply, val_main_call0_v1_apply, val_main_call0_v0_apply, val_main_cst_2_apply,
    val_main_v13_apply, val_main_v9_apply, val_main_v7_apply, val_main_v2_apply, val_main_v1_apply,
    val_main_v8_apply, val_main_v6_apply, val_main_v5_apply, val_main_v4_apply,
    val_main_v12_apply, val_main_v11_apply, val_main_cst_1_apply, val_main_v10_apply]
  simp only [idx_sq0, idx_sq1, idx_dotl, idx_dotr, val_main_cst_apply, val_main_cst_0_apply, val_main_v0_apply, val_main_v3_apply,
    Ideal.hostUnary_sqrt_def, Ideal.maximumf_def, Ideal.subf_def, Ideal.addf_def, Ideal.mulf_def, Ideal.ofBits_def,
    Ideal.ofBits_zero_f32, zero_add]
  rfl

theorem dist_eq (x0 x1 : (⟨S64x1024x256, .f32⟩ : BufTy).Contents (Elt Ideal)) :
    val_main_v15 (F := Ideal) x0 x1 = dist x0 x1 := by
  funext i
  obtain ⟨b, p, q, rfl⟩ : ∃ (b : Fin 64) (p q : Fin 1024), i = ix3 b p q := ⟨i 0, i 1, i 2, eq_ix3 i⟩
  exact dist_at x0 x1 b p q

/-! ## The batch totals: a host sum over both trailing axes -/

/-- Dropping the two trailing coordinates keeps the batch. -/
theorem drop12 (h' : S64x1024x1024.ReducesTo [1, 2] S64) (i : S64x1024x1024.Idx) : (h'.drop i 0 : Nat) = (i 0).val :=
  Shape.ReducesTo.drop_apply_val_of_eq h' i 0 0

/-- The indices that drop to batch `b` are the `(b, p, q)`: their sum is the sum over `p` of the sums over `q`. -/
theorem sum_filter_drop12 (h' : S64x1024x1024.ReducesTo [1, 2] S64) (x : S64x1024x1024.Idx → EReal) (b : Fin 64)
    [DecidablePred fun i : S64x1024x1024.Idx => h'.drop i = ix1 b] :
    ∑ i ∈ Finset.univ.filter (fun i => h'.drop i = ix1 b), x i = ∑ p : Fin 1024, ∑ q : Fin 1024, x (ix3 b p q) := by
  rw [← Finset.sum_product' Finset.univ Finset.univ (fun (p q : Fin 1024) => x (ix3 b p q))]
  refine Finset.sum_nbij' (fun i => ((i 1 : Fin 1024), (i 2 : Fin 1024))) (fun pq => ix3 b pq.1 pq.2) ?_ ?_ ?_ ?_ ?_
  · intro i _; exact Finset.mem_product.2 ⟨Finset.mem_univ _, Finset.mem_univ _⟩
  · intro pq _
    refine Finset.mem_filter.2 ⟨Finset.mem_univ _, funext fun a => Fin.ext ?_⟩
    match a with
    | ⟨0, _⟩ => exact drop12 h' _
  · intro i hi
    have hj := (Finset.mem_filter.1 hi).2
    have h0 : (i 0).val = b.val := (drop12 h' i).symm.trans (congrArg (fun j : S64.Idx => (j 0).val) hj)
    exact funext fun a => Fin.ext (by match a with | ⟨0, _⟩ => exact h0.symm | ⟨1, _⟩ => rfl | ⟨2, _⟩ => rfl)
  · intro pq _; rfl
  · intro i hi
    have hj := (Finset.mem_filter.1 hi).2
    have h0 : (i 0).val = b.val := (drop12 h' i).symm.trans (congrArg (fun j : S64.Idx => (j 0).val) hj)
    exact congrArg x (funext fun a => Fin.ext (by match a with | ⟨0, _⟩ => exact h0 | ⟨1, _⟩ => rfl | ⟨2, _⟩ => rfl))

/-- The reference's total of batch `b`. -/
theorem totals_at (x0 x1 : (⟨S64x1024x256, .f32⟩ : BufTy).Contents (Elt Ideal)) (b : Fin 64) :
    val_main_v16 (F := Ideal) x0 x1 (ix1 b) = total x0 x1 b := by
  unfold val_main_v16
  rw [dist_eq]
  show Ideal.hostReduceAdd reducesTo_S64x1024x1024_S64_d1_2 (dist x0 x1) (val_main_cst_3 (F := Ideal) (Shape.Idx.first h_S_)) (ix1 b) = _
  unfold Ideal.hostReduceAdd
  rw [sum_filter_drop12]
  show Ideal.ofBits .f32 0x00000000#32 + _ = _
  rw [Ideal.ofBits_zero_f32, zero_add]
  rfl

/-! ## The adjacency mask -/

theorem adj_at (x0 x1 : (⟨S64x1024x256, .f32⟩ : BufTy).Contents (Elt Ideal)) (b : Fin 64) (p q : Fin 1024) :
    val_main_v21 (F := Ideal) x0 x1 (ix3 b p q) = Ideal.cmp .ole (distAt x0 x1 b p q) (mean x0 x1 b) := by
  have e : idx_main_v17 (idx_main_v20 (ix3 b p q)) = ix1 b := funext fun a => Fin.ext (by match a with | ⟨0, _⟩ => rfl)
  rw [val_main_v21_apply, dist_at, val_main_v20_apply, val_main_v19_apply, val_main_v17_apply, val_main_v18_apply,
    val_main_cst_4_apply, e, totals_at]
  rfl

theorem adj_eq (x0 x1 : (⟨S64x1024x256, .f32⟩ : BufTy).Contents (Elt Ideal)) :
    val_main_v21 (F := Ideal) x0 x1 = adj x0 x1 := by
  funext i
  obtain ⟨b, p, q, rfl⟩ : ∃ (b : Fin 64) (p q : Fin 1024), i = ix3 b p q := ⟨i 0, i 1, i 2, eq_ix3 i⟩
  exact adj_at x0 x1 b p q

end Cert.ReferenceIdeal.RefValue

end
-- ==== Proof.lean ====
/-
  The certificate: a batched pairwise-distance kernel and a thresholding kernel against their jnp reference, over the
  extended reals.

  Both programs compute, for each batch `b`, `dist b p q = sqrt (max ε (|x_bp|² + |y_bq|² - 2 ⟨x_bp, y_bq⟩))` and the
  bit `dist b p q ≤ mean_b`, where `mean_b` is the batch's total distance over 2²⁰. The kernel takes the inner products
  on the matrix unit from truncated operands (truncation is the identity here) and totals each batch rows first; the
  reference takes a batched `dot_general` and one sum over both trailing axes. The two totals are the same sum of
  extended reals in another order, and everything else is the same function term by term, so no finiteness of the
  inputs is used. The kernel keeps its mask as words between its second call and the host, which turns a nonzero word
  back into the bit.
-/
import proofs.«132827_j25847113187909_1_alg».proof.Defs
import proofs.«132827_j25847113187909_1_alg».proof.Proof.Gen.Kernel
import proofs.«132827_j25847113187909_1_alg».proof.Proof.Gen.Kernel.Frame
import proofs.«132827_j25847113187909_1_alg».proof.Proof.Gen.KernelIdeal
import proofs.«132827_j25847113187909_1_alg».proof.Proof.Gen.KernelIdeal.Frame
import proofs.«132827_j25847113187909_1_alg».proof.Proof.Gen.ReferenceIdeal
import proofs.«132827_j25847113187909_1_alg».proof.Proof.Gen.ReferenceIdeal.Run
import proofs.«132827_j25847113187909_1_alg».proof.Proof.Gen.ReferenceIdeal.Read
import proofs.«132827_j25847113187909_1_alg».proof.Proof.Gen.Pre_finite_inputs
import proofs.«132827_j25847113187909_1_alg».proof.Proof.KernelRun
import proofs.«132827_j25847113187909_1_alg».proof.Proof.Fold
import proofs.«132827_j25847113187909_1_alg».proof.Proof.RefValue
import proofs.«132827_j25847113187909_1_alg».proof.Proof.Spec
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- Both programs end with the distance array at `dist` and the mask at `adj` of the (agreeing) arguments. -/
theorem algebraic : Cert.algebraic_KernelIdeal_ReferenceIdeal := by
  intro m ρ m' ρ' _ hagree
  refine ⟨fun c => Cert.Spec.dist (Cert.KernelIdeal.Fold.xin m c) (Cert.KernelIdeal.Fold.yin m c),
    fun c => Cert.Spec.adj (Cert.KernelIdeal.Fold.xin m c) (Cert.KernelIdeal.Fold.yin m c), ?_, ?_⟩
  · exact (θ_run Cert.KernelIdeal.defs _ _).mono
      (fun r h c => ⟨(h c).1.trans (Cert.KernelIdeal.Fold.W4_dist m ρ c),
        (h c).2.1.trans (Cert.KernelIdeal.Fold.W4_adj m ρ c), (h c).2.2.1, (h c).2.2.2⟩)
      (Cert.KernelIdeal.Results.run (F := Ideal) m ρ)
  · refine (θ_run Cert.ReferenceIdeal.defs _ _).mono (fun r h c => ⟨?_, ?_, (h c).2.2.1, (h c).2.2.2⟩)
      (Cert.ReferenceIdeal.Value.run (F := Ideal) m' ρ')
    · refine ((h c).1.trans (Cert.ReferenceIdeal.Read.val_main_v15_eq _ _)).trans
        ((Cert.ReferenceIdeal.RefValue.dist_eq _ _).trans ?_)
      rw [(hagree c).1, (hagree c).2]
    · refine ((h c).2.1.trans (Cert.ReferenceIdeal.Read.val_main_v21_eq _ _)).trans
        ((Cert.ReferenceIdeal.RefValue.adj_eq _ _).trans ?_)
      rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
